-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4096 : Shape := ⟨2, ![256, 4096]⟩
abbrev S14336x4096 : Shape := ⟨2, ![14336, 4096]⟩
abbrev S14336 : Shape := ⟨1, ![14336]⟩
abbrev S_ : Shape := ⟨0, ![]⟩

class Facts : Prop where
  bcast_S_S256x4096 : S_.BroadcastsInDim S256x4096 (![] : Fin 0 → Fin S256x4096.rank)
  reducesTo_S256x4096_S_d0_1 : S256x4096.ReducesTo [0, 1] S_
  h_S_ : 0 < S_.numel
  bcast_S_S14336 : S_.BroadcastsInDim S14336 (![] : Fin 0 → Fin S14336.rank)
  reducesTo_S14336_S_d0 : S14336.ReducesTo [0] S_

variable [Facts]

def fn {F : FTy → Type} [FloatOps F] (main_arg0 : FVec F S256x4096 .f32) (main_arg1 : IVec S14336x4096 32) (main_arg2 : FVec F S14336 .f32) (main_arg3 : FVec F S14336 .f32) : IVec S_ 1 :=
  let main_v0 : FVec F S256x4096 .f32 := Host.absf main_arg0
  let main_cst : FVec F S_ .f32 := constant S_ .f32 0x7F800000#32
  let main_v1 : FVec F S256x4096 .f32 := broadcastInDim S256x4096 ![] bcast_S_S256x4096 main_cst
  let main_v2 : IVec S256x4096 1 := cmpf .olt main_v0 main_v1
  let main_c : IVec S_ 1 := constantI S_ 1 1#1
  let main_v3 : IVec S_ 1 := (fun x v => Host.reduce IntOp.andi x v reducesTo_S256x4096_S_d0_1 h_S_) main_v2 main_c
  let main_v4 : FVec F S14336 .f32 := Host.absf main_arg2
  let main_cst_0 : FVec F S_ .f32 := constant S_ .f32 0x7F800000#32
  let main_v5 : FVec F S14336 .f32 := broadcastInDim S14336 ![] bcast_S_S14336 main_cst_0
  let main_v6 : IVec S14336 1 := cmpf .olt main_v4 main_v5
  let main_c_1 : IVec S_ 1 := constantI S_ 1 1#1
  let main_v7 : IVec S_ 1 := (fun x v => Host.reduce IntOp.andi x v reducesTo_S14336_S_d0 h_S_) main_v6 main_c_1
  let main_v8 : IVec S_ 1 := andi main_v3 main_v7
  let main_v9 : FVec F S14336 .f32 := Host.absf main_arg3
  let main_cst_2 : FVec F S_ .f32 := constant S_ .f32 0x7F800000#32
  let main_v10 : FVec F S14336 .f32 := broadcastInDim S14336 ![] bcast_S_S14336 main_cst_2
  let main_v11 : IVec S14336 1 := cmpf .olt main_v9 main_v10
  let main_c_3 : IVec S_ 1 := constantI S_ 1 1#1
  let main_v12 : IVec S_ 1 := (fun x v => Host.reduce IntOp.andi x v reducesTo_S14336_S_d0 h_S_) main_v11 main_c_3
  let main_v13 : IVec S_ 1 := andi main_v8 main_v12
  main_v13
-- ==== Kernel.lean ====
abbrev S256x4096 : Shape := ⟨2, ![256, 4096]⟩
abbrev S14336x4096 : Shape := ⟨2, ![14336, 4096]⟩
abbrev S14336 : Shape := ⟨1, ![14336]⟩
abbrev S256x14336 : Shape := ⟨2, ![256, 14336]⟩
abbrev S256 : Shape := ⟨1, ![256]⟩
abbrev S256x256 : Shape := ⟨2, ![256, 256]⟩
abbrev S256x1 : Shape := ⟨2, ![256, 1]⟩
abbrev S1x256 : Shape := ⟨2, ![1, 256]⟩

abbrev nBuf : Space → Nat
  | .hbm => 5
  | .vmem => 9
  | .smem => 0
  | _ => 0

abbrev bufTy : (tb : Table) → Fin (tcTables nBuf tb) → BufTy
  | .hbm, ⟨0, _⟩ => ⟨S256x4096, .f32⟩
  | .hbm, ⟨1, _⟩ => ⟨S14336x4096, .i32⟩
  | .hbm, ⟨2, _⟩ => ⟨S14336, .f32⟩
  | .hbm, ⟨3, _⟩ => ⟨S14336, .f32⟩
  | .hbm, ⟨4, _⟩ => ⟨S256x14336, .f32⟩
  | .local _ .vmem, ⟨0, _⟩ => ⟨S256x4096, .f32⟩
  | .local _ .vmem, ⟨1, _⟩ => ⟨S256x4096, .i32⟩
  | .local _ .vmem, ⟨2, _⟩ => ⟨S256x4096, .i32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256x256, .f32⟩
  | .local _ .vmem, ⟨8, _⟩ => ⟨S256x256, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![56], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  shapeCasts_S256_S1x256 : S256.ShapeCasts S1x256
  broadcasts_S1x256_S256x256 : S1x256.Broadcasts S256x256
  inb_S256x256_S256x256_0_0 : ∀ a, (![0, 0] : Fin 2 → Nat) a + S256x256.size a ≤ S256x256.size a
  h_S256x256 : 0 < S256x256.numel
  dot_S256x4096_S256x4096_S256x256_1_1_0_0_n_n_wf : DotDims.WF S256x4096 S256x4096 S256x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S256x4096.size a
  hwx0_0 : ∀ i : grid0.Coords, EltTy.bits .f32 = 32 ∨ (Rect.block (s := S256x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S14336x4096.size a
  hwx0_1 : ∀ i : grid0.Coords, EltTy.bits .i32 = 32 ∨ (Rect.block (s := S14336x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S14336.size a
  hwx0_2 : ∀ i : grid0.Coords, EltTy.bits .f32 = 32 ∨ (Rect.block (s := S14336) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S14336.size a
  hwx0_3 : ∀ i : grid0.Coords, EltTy.bits .f32 = 32 ∨ (Rect.block (s := S14336) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x14336.size a
  hwx0_4 : ∀ i : grid0.Coords, EltTy.bits .f32 = 32 ∨ (Rect.block (s := S256x14336) S256x256.size (cc0_transform_4 i) (hinb0_4 i)).WholeWords (EltTy.packing .f32)

variable [Facts₀]

def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_arg0) S256x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x4096 : Shape := ⟨2, ![256, 4096]⟩
abbrev S14336x4096 : Shape := ⟨2, ![14336, 4096]⟩
abbrev S14336 : Shape := ⟨1, ![14336]⟩
abbrev S14336x1 : Shape := ⟨2, ![14336, 1]⟩
abbrev S256x14336 : Shape := ⟨2, ![256, 14336]⟩
abbrev S1x14336 : Shape := ⟨2, ![1, 14336]⟩

abbrev nBuf : Space → Nat
  | .hbm => 12
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S14336x4096, .i32⟩
  | .hbm, ⟨2, _⟩ => ⟨S14336, .f32⟩
  | .hbm, ⟨3, _⟩ => ⟨S14336, .f32⟩
  | .hbm, ⟨4, _⟩ => ⟨S14336x4096, .f32⟩
  | .hbm, ⟨5, _⟩ => ⟨S14336x1, .f32⟩
  | .hbm, ⟨6, _⟩ => ⟨S14336x4096, .f32⟩
  | .hbm, ⟨7, _⟩ => ⟨S14336x4096, .f32⟩
  | .hbm, ⟨8, _⟩ => ⟨S256x14336, .f32⟩
  | .hbm, ⟨9, _⟩ => ⟨S1x14336, .f32⟩
  | .hbm, ⟨10, _⟩ => ⟨S256x14336, .f32⟩
  | .hbm, ⟨11, _⟩ => ⟨S256x14336, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S14336_S14336x1_0 : S14336.BroadcastsInDim S14336x1 (![0] : Fin 1 → Fin S14336x1.rank)
  bcast_S14336x1_S14336x4096_0_1 : S14336x1.BroadcastsInDim S14336x4096 (![0, 1] : Fin 2 → Fin S14336x4096.rank)
  bcast_S14336_S1x14336_1 : S14336.BroadcastsInDim S1x14336 (![1] : Fin 1 → Fin S1x14336.rank)
  bcast_S1x14336_S256x14336_0_1 : S1x14336.BroadcastsInDim S256x14336 (![0, 1] : Fin 2 → Fin S256x14336.rank)
  dot_S256x4096_S14336x4096_S256x14336_1_1_0_0_n_n_wf : DotDims.WF S256x4096 S14336x4096 S256x14336 [1] [1] [0] [0] [] []

variable [Facts₀]

def dot_S256x4096_S14336x4096_S256x14336_1_1_0_0_n_n : DotDims S256x4096 S14336x4096 S256x14336 where
  lhsContracting := [1]
  rhsContracting := [1]
  lhsNonContracting := [0]
  rhsNonContracting := [0]
  lhsBatch := []
  rhsBatch := []
  wf := dot_S256x4096_S14336x4096_S256x14336_1_1_0_0_n_n_wf

class Facts : Prop extends Facts₀ where

variable [Facts]
-- ==== Proof.Spec.lean ====
/-
  A linear layer over a weight matrix stored as integers with one scale per output channel.

  For tokens `t < 256`, output channels `o < 14336` and input features `k < 4096`, the weight entry is the
  integer `w o k` read as a number and multiplied by the channel's scale `s o`; the layer's result is

      y t o = (∑ k, x t k * (w o k * s o)) + b o

  on the extended reals. Both programs compute exactly this expression, summand for summand: nothing is
  regrouped or distributed, so no finiteness of the inputs is used anywhere.
-/
import Idealize.ShloMosaic.PureOps.Ideal
import Idealize.ShloMosaic.Lib.ValueIdx

noncomputable section

open scoped BigOperators

namespace Cert.QLinear

open Idealize.ShloMosaic Idealize.ShloMosaic.ValueIdx

/-- The dequantised weight of output channel `o` at input feature `k`: the stored integer, read signed as a
    real number, times the channel's scale. -/
def deq (w : (⟨2, ![14336, 4096]⟩ : Shape).Idx → BitVec 32) (s : (⟨1, ![14336]⟩ : Shape).Idx → Ideal .f32)
    (o : Fin 14336) (k : Fin 4096) : Ideal .f32 :=
  FloatOps.sitofp (F := Ideal) .f32 (w (ix2 o k)) * s (ix1 o)

/-- The layer's result at token `i 0` and output channel `i 1`: the inner product of the token's row with
    the channel's dequantised weights, plus the channel's bias. -/
def linear (x : (⟨2, ![256, 4096]⟩ : Shape).Idx → Ideal .f32) (w : (⟨2, ![14336, 4096]⟩ : Shape).Idx → BitVec 32)
    (s b : (⟨1, ![14336]⟩ : Shape).Idx → Ideal .f32) : (⟨2, ![256, 14336]⟩ : Shape).Idx → Ideal .f32 :=
  fun i => (∑ k : Fin 4096, x (ix2 (i 0) k) * deq w s (i 1) k) + b (ix1 (i 1))

theorem linear_apply (x : (⟨2, ![256, 4096]⟩ : Shape).Idx → Ideal .f32) (w : (⟨2, ![14336, 4096]⟩ : Shape).Idx → BitVec 32)
    (s b : (⟨1, ![14336]⟩ : Shape).Idx → Ideal .f32) (t : Fin 256) (o : Fin 14336) :
    linear x w s b (ix2 t o) = (∑ k : Fin 4096, x (ix2 t k) * deq w s o k) + b (ix1 o) := rfl

end Cert.QLinear

end
-- ==== Proof.RefLinear.lean ====
/-
  The reference computes the layer `Cert.QLinear.linear`.

  Its eight operations are: the integer weights read as numbers; the scale vector laid out as a column and
  spread along the input features; their entrywise product (the dequantised weights); the contraction of the
  tokens with it over the input-feature axis of both operands; the bias laid out as a row and spread over the
  tokens; the sum. Read at token `t` and channel `o`, the contraction's two operand indices are `(t, k)` and
  `(o, k)`, the scale column spread along `k` reads the scale at `o`, and the spread bias row reads the bias
  at `o`: exactly the summands and the bias of `linear`.
-/
import proofs.«131660_j38122129719936_1_alg».proof.Proof.Gen.ReferenceIdeal.Read
import proofs.«131660_j38122129719936_1_alg».proof.Proof.Spec

noncomputable section

open scoped BigOperators

namespace Cert.QLinear.Ref

open Cert.ReferenceIdeal Cert.ReferenceIdeal.Gen Cert.ReferenceIdeal.Read
open Idealize.ShloMosaic Idealize.ShloMosaic.ValueIdx

/-- The contraction's left operand index at token `t`, channel `o` and feature `k` is (token, feature). -/
theorem lidx_eq (t : Fin 256) (o : Fin 14336) (k : Fin 4096) : lidx_main_v4 (ix2 t o) k = ix2 t k :=
  funext fun a => Fin.ext (by match a with | ⟨0, _⟩ => rfl | ⟨1, _⟩ => rfl)

/-- Its right operand index is (channel, feature). -/
theorem ridx_eq (t : Fin 256) (o : Fin 14336) (k : Fin 4096) : ridx_main_v4 (ix2 t o) k = ix2 o k :=
  funext fun a => Fin.ext (by match a with | ⟨0, _⟩ => rfl | ⟨1, _⟩ => rfl)

/-- The scale column spread along the features reads, at (channel, feature), the scale of that channel. -/
theorem scale_idx_eq (o : Fin 14336) (k : Fin 4096) : idx_main_v1 (idx_main_v2 (ix2 o k)) = ix1 o :=
  funext fun a => Fin.ext (by match a with | ⟨0, _⟩ => rfl)

/-- The bias row spread over the tokens reads, at (token, channel), the bias of that channel. -/
theorem bias_idx_eq (t : Fin 256) (o : Fin 14336) : idx_main_v5 (idx_main_v6 (ix2 t o)) = ix1 o :=
  funext fun a => Fin.ext (by match a with | ⟨0, _⟩ => rfl)

/-- The dequantised weight the reference builds, at (channel, feature). -/
theorem weight_apply (x1 : (⟨S14336x4096, .i32⟩ : BufTy).Contents (Elt Ideal)) (x2 : (⟨S14336, .f32⟩ : BufTy).Contents (Elt Ideal))
    (o : Fin 14336) (k : Fin 4096) : val_main_v3 (F := Ideal) x1 x2 (ix2 o k) = deq x1 x2 o k := by
  rw [val_main_v3_apply, val_main_v0_apply, val_main_v2_apply, val_main_v1_apply, scale_idx_eq]
  rfl

/-- The reference's result is the layer. -/
theorem result_eq (x0 : (⟨S256x4096, .f32⟩ : BufTy).Contents (Elt Ideal)) (x1 : (⟨S14336x4096, .i32⟩ : BufTy).Contents (Elt Ideal))
    (x2 x3 : (⟨S14336, .f32⟩ : BufTy).Contents (Elt Ideal)) :
    val_main_v7 (F := Ideal) x0 x1 x2 x3 = linear x0 x1 x2 x3 := by
  funext i
  obtain ⟨t, o, rfl⟩ : ∃ (t : Fin 256) (o : Fin 14336), i = ix2 t o := ⟨i 0, i 1, eq_ix2 i⟩
  rw [val_main_v7_apply, val_main_v4_apply, val_main_v6_apply, val_main_v5_apply, bias_idx_eq, linear_apply]
  show (∑ k : Fin 4096, x0 (lidx_main_v4 (ix2 t o) k) * val_main_v3 (F := Ideal) x1 x2 (ridx_main_v4 (ix2 t o) k)) + x3 (ix1 o) = _
  refine congrArg (· + x3 (ix1 o)) (Finset.sum_congr rfl fun k _ => ?_)
  rw [lidx_eq, ridx_eq, weight_apply]

end Cert.QLinear.Ref

end
-- ==== Proof.LibKeepdims.lean ====
/-
  Layout and reduction forms that a `keepdims=True` reduction meets, read at an index written by coordinates.

  A sum kept as a column — `[a]` viewed as `[a, 1]` — and that column, or a single `[1, 1]` cell, spread
  back over an `[a, b]` block read one entry of the smaller array; and a host sum over the last two axes of a
  rank-4 array is, at each index of the two axes kept, the double sum over the two coordinates dropped (every
  index that drops to `(p, q)` is `(p, q, l, k)` for exactly one pair `(l, k)`).
-/
import Idealize.ShloMosaic.Lib.Pipeline.Value
import Idealize.ShloMosaic.Lib.ValueIdx
import Idealize.ShloMosaic.PureOps.Ideal.Laws

noncomputable section

open scoped BigOperators

namespace Cert.LibKeepdims

open Idealize.ShloMosaic Idealize.ShloMosaic.ValueIdx

variable {α : Type}

/-! ## A column made of a vector, and spread over a block -/

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A single cell `[1, 1]` broadcast to `[a, b]` reads that cell at every index. -/
theorem broadcastTo_11_ab_apply {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## A host sum over the last two of four axes -/

/-- The host's float sum over axes 2 and 3 of an `[a, b, c, d]` array, at `(p, q)`: the initial value plus the
    sum over `l` and `k` of the operand at `(p, q, l, k)`. The indices that drop to `(p, q)` correspond one to
    one to the pairs `(l, k)` of their last two coordinates. -/
theorem hostReduceAdd_lastTwo {a b c d : ℕ}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ l : Fin c, ∑ k : Fin d, x (ix4 p q l k) := by
  unfold Ideal.hostReduceAdd
  refine congrArg (init + ·) ?_
  rw [← Finset.sum_product' (Finset.univ : Finset (Fin c)) (Finset.univ : Finset (Fin d)) (fun l k => x (ix4 p q l k))]
  -- the axes kept are 0 and 1, whatever the extents: a dropped index has the source's first two coordinates
  have d0 : ∀ i : (⟨4, ![a, b, c, d]⟩ : Shape).Idx, (h.drop i 0 : ℕ) = i 0 := fun _ => rfl
  have d1 : ∀ i : (⟨4, ![a, b, c, d]⟩ : Shape).Idx, (h.drop i 1 : ℕ) = i 1 := fun _ => rfl
  refine Finset.sum_nbij' (fun i => (i 2, i 3)) (fun lk => ix4 p q lk.1 lk.2) ?_ ?_ ?_ ?_ ?_
  · intro i _; exact Finset.mem_product.2 ⟨Finset.mem_univ _, Finset.mem_univ _⟩
  · intro lk _
    refine Finset.mem_filter.2 ⟨Finset.mem_univ _, funext fun ax => Fin.ext ?_⟩
    match ax with
    | ⟨0, _⟩ => exact d0 _
    | ⟨1, _⟩ => exact d1 _
  · intro i hi
    have hj := (Finset.mem_filter.1 hi).2
    funext ax; apply Fin.ext
    match ax with
    | ⟨0, _⟩ => show p.val = (i 0).val; rw [← d0 i, hj]; rfl
    | ⟨1, _⟩ => show q.val = (i 1).val; rw [← d1 i, hj]; rfl
    | ⟨2, _⟩ => rfl
    | ⟨3, _⟩ => rfl
  · intro lk _; rfl
  · intro i hi
    have hj := (Finset.mem_filter.1 hi).2
    refine congrArg x ?_
    funext ax; apply Fin.ext
    match ax with
    | ⟨0, _⟩ => show (i 0).val = p.val; rw [← d0 i, hj]; rfl
    | ⟨1, _⟩ => show (i 1).val = q.val; rw [← d1 i, hj]; rfl
    | ⟨2, _⟩ => rfl
    | ⟨3, _⟩ => rfl

end Cert.LibKeepdims

end
-- ==== Proof.BodyValue.lean ====
/-
  What the kernel body computes for one block of 256 output channels, read at an entry.

  The body holds all 256 token rows `x` (256 × 4096), the block's 256 weight rows `w` (256 × 4096 integers),
  and the block's 256 scales `s` and biases `b`. It reads the integers as numbers, multiplies row `q` by
  its scale (the scale vector viewed as a column and spread along the features), contracts the tokens with the
  scaled weights over the feature axis of both into a zero accumulator, and adds the bias (viewed as a row and
  spread over the tokens). On the extended reals the two changes of float format are the identity, the zero
  accumulator contributes nothing, and at token `p` and block channel `q` the contraction's operand indices are
  `(p, k)` and `(q, k)`; so the entry is `(∑ k, x p k * (w q k * s q)) + b q`.
-/
import proofs.«131660_j38122129719936_1_alg».proof.Proof.Gen.KernelIdeal.Skeleton
import proofs.«131660_j38122129719936_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.QLinear.Body

open Cert.KernelIdeal Cert.KernelIdeal.Gen
open Idealize.ShloMosaic Idealize.ShloMosaic.ValueIdx Cert.LibKeepdims

/-! ## The contraction's operand indices: tokens × features against channels × features -/

theorem lhs_tok (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide), dif_pos (show (0 : Fin S256x4096.rank) ∈ dot_S256x4096_S256x4096_S256x256_1_1_0_0_n_n.lhsNonContracting by decide)]
  rfl
theorem lhs_feat (i : S256x256.Idx) (q : dot_S256x4096_S256x4096_S256x256_1_1_0_0_n_n.contr.Idx) :
    (dot_S256x4096_S256x4096_S256x256_1_1_0_0_n_n.lhsIdx i q 1).val = (q ⟨0, by decide⟩).val :=
  dot_S256x4096_S256x4096_S256x256_1_1_0_0_n_n.lhsIdx_val_of_single rfl i q
theorem rhs_chan (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide), dif_pos (show (0 : Fin S256x4096.rank) ∈ dot_S256x4096_S256x4096_S256x256_1_1_0_0_n_n.rhsNonContracting by decide)]
  rfl
theorem rhs_feat (i : S256x256.Idx) (q : dot_S256x4096_S256x4096_S256x256_1_1_0_0_n_n.contr.Idx) :
    (dot_S256x4096_S256x4096_S256x256_1_1_0_0_n_n.rhsIdx i q 1).val = (q ⟨0, by decide⟩).val :=
  dot_S256x4096_S256x4096_S256x256_1_1_0_0_n_n.rhsIdx_val_of_single rfl i q

/-- The contraction into the zero accumulator, at token `p` and block channel `q`: the sum over the features of the
    left operand's row `p` times the right operand's row `q`. -/
theorem contract_apply (l r : FVec Ideal S256x4096 .bf16) (p q : Fin 256) :
    matmul dot_S256x4096_S256x4096_S256x256_1_1_0_0_n_n none l r (constant (F := Ideal) S256x256 .f32 0x00000000#32) (ix2 p q)
      = ∑ k : Fin 4096, l (ix2 p k) * r (ix2 q k) := by
  refine (Ideal.matmul_constant_zero_apply dot_S256x4096_S256x4096_S256x256_1_1_0_0_n_n none l r (ix2 p q)).trans ?_
  rw [← Equiv.sum_comp (ValueIdx.contrEquiv1 dot_S256x4096_S256x4096_S256x256_1_1_0_0_n_n 4096 rfl rfl).symm]
  refine Finset.sum_congr rfl fun k _ => ?_
  have hk := ValueIdx.contrEquiv1_symm_val dot_S256x4096_S256x4096_S256x256_1_1_0_0_n_n 4096 rfl rfl k
  have el : dot_S256x4096_S256x4096_S256x256_1_1_0_0_n_n.lhsIdx (ix2 p q) ((ValueIdx.contrEquiv1 dot_S256x4096_S256x4096_S256x256_1_1_0_0_n_n 4096 rfl rfl).symm k) = ix2 p k := funext fun a => Fin.ext (by
    match a with
    | ⟨0, _⟩ => exact lhs_tok _ _
    | ⟨1, _⟩ => exact (lhs_feat _ _).trans hk)
  have er : dot_S256x4096_S256x4096_S256x256_1_1_0_0_n_n.rhsIdx (ix2 p q) ((ValueIdx.contrEquiv1 dot_S256x4096_S256x4096_S256x256_1_1_0_0_n_n 4096 rfl rfl).symm k) = ix2 q k := funext fun a => Fin.ext (by
    match a with
    | ⟨0, _⟩ => exact rhs_chan _ _
    | ⟨1, _⟩ => exact (rhs_feat _ _).trans hk)
  rw [el, er]

/-! ## The body's stored value at an entry -/

/-- The body's one stored value at token `p` and block channel `q`. -/
theorem body_apply (x : Vec Ideal S256x4096 .f32) (w : Vec Ideal S256x4096 .i32) (s b : Vec Ideal S256 .f32) (p q : Fin 256) :
    k0_pay1 (F := Ideal) x w s b (ix2 p q)
      = (∑ k : Fin 4096, x (ix2 p k) * (FloatOps.sitofp (F := Ideal) .f32 (w (ix2 q k)) * s (ix1 q))) + b (ix1 q) := by
  unfold k0_pay1
  rw [addf_apply, contract_apply, broadcastTo_1b_ab_apply, shapeCast_a_1a_apply]
  refine congrArg (· + b (ix1 q)) (Finset.sum_congr rfl fun k _ => ?_)
  rw [truncf_apply, truncf_apply, mulf_apply, sitofp_apply, broadcastTo_a1_ab_apply, shapeCast_a_a1_apply]

end Cert.QLinear.Body

end
-- ==== Proof.KernelLinear.lean ====
/-
  The kernel computes the layer `Cert.QLinear.linear`.

  The grid has 56 points. At point `t` the body sees every token row, and rows `256 t … 256 t + 255` of the
  weights, scales and biases; it writes columns `256 t … 256 t + 255` of the output. By the body's value at an
  entry, what it writes at token `p` and block column `q` is the layer's entry at token `p` and channel
  `256 t + q`: so point `t` writes back block `t` of the layer. The 56 column blocks tile the 14336 channels
  (channel `o` lies in block `o / 256`), hence after the run the output array is the layer everywhere.
-/
import proofs.«131660_j38122129719936_1_alg».proof.Proof.Gen.KernelIdeal.Value
import proofs.«131660_j38122129719936_1_alg».proof.Proof.BodyValue
import proofs.«131660_j38122129719936_1_alg».proof.Proof.Spec

noncomputable section

open scoped BigOperators

namespace Cert.QLinear.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl
theorem origin1 : (![0] : Fin 1 → Nat) = fun _ => 0 := funext fun a => by fin_cases a <;> rfl

/-- The block each window is on at point `t`: the tokens' window never moves; the weights', scales' and biases'
    windows are on row block `t`; the output's window is on column block `t`. Decided over the 56 points. -/
theorem block_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = t.val
    ∧ win0_3.index t (0 : Fin 1) = t.val
    ∧ win0_4.index t (0 : Fin 2) = 0 ∧ win0_4.index t (1 : Fin 2) = t.val :=
  (by decide +kernel : ∀ t : Fin grid0.N, _)

/-- Channel `256 t + q` of block `t`. -/
abbrev chan (t : Fin cfg0.N) (q : Fin 256) : Fin 14336 :=
  ⟨t.val * 256 + q.val, by have : t.val < 56 := t.isLt; have := q.isLt; omega⟩

/-! ## The blocks the body reads at a point -/

/-- The tokens' block is the whole token array. -/
theorem tokens_block (c : Dev nD) (t : Fin cfg0.N) (p : Fin 256) (k : Fin 4096) :
    iblk m c 0 t (ix2 p k) = V m c main_arg0 (ix2 p k) := by
  obtain ⟨e0, e1, -⟩ := block_index t
  show V m c main_arg0 (((cfg0.win 0).blk t).view.emb (ix2 p k)) = V m c main_arg0 (ix2 p k)
  refine congrArg (V m c main_arg0) (funext fun a => Fin.ext ?_)
  match a with
  | ⟨0, _⟩ => show win0_0.index t (0 : Fin 2) * 256 + 1 * p.val = p.val; omega
  | ⟨1, _⟩ => show win0_0.index t (1 : Fin 2) * 4096 + 1 * k.val = k.val; omega

/-- The weights' block at point `t` is rows `256 t …` of the weight array. -/
theorem weights_block (c : Dev nD) (t : Fin cfg0.N) (q : Fin 256) (k : Fin 4096) :
    iblk m c 1 t (ix2 q k) = V m c main_arg1 (ix2 (chan t q) k) := by
  obtain ⟨-, -, e0, e1, -⟩ := block_index t
  show V m c main_arg1 (((cfg0.win 1).blk t).view.emb (ix2 q k)) = V m c main_arg1 (ix2 (chan t q) k)
  refine congrArg (V m c main_arg1) (funext fun a => Fin.ext ?_)
  match a with
  | ⟨0, _⟩ => show win0_1.index t (0 : Fin 2) * 256 + 1 * q.val = t.val * 256 + q.val; omega
  | ⟨1, _⟩ => show win0_1.index t (1 : Fin 2) * 4096 + 1 * k.val = k.val; omega

/-- The scales' block at point `t` is entries `256 t …` of the scale vector. -/
theorem scales_block (c : Dev nD) (t : Fin cfg0.N) (q : Fin 256) :
    iblk m c 2 t (ix1 q) = V m c main_arg2 (ix1 (chan t q)) := by
  obtain ⟨-, -, -, -, e, -⟩ := block_index t
  show V m c main_arg2 (((cfg0.win 2).blk t).view.emb (ix1 q)) = V m c main_arg2 (ix1 (chan t q))
  refine congrArg (V m c main_arg2) (funext fun a => Fin.ext ?_)
  match a with
  | ⟨0, _⟩ => show win0_2.index t (0 : Fin 1) * 256 + 1 * q.val = t.val * 256 + q.val; omega

/-- The biases' block at point `t` is entries `256 t …` of the bias vector. -/
theorem biases_block (c : Dev nD) (t : Fin cfg0.N) (q : Fin 256) :
    iblk m c 3 t (ix1 q) = V m c main_arg3 (ix1 (chan t q)) := by
  obtain ⟨-, -, -, -, -, e, -⟩ := block_index t
  show V m c main_arg3 (((cfg0.win 3).blk t).view.emb (ix1 q)) = V m c main_arg3 (ix1 (chan t q))
  refine congrArg (V m c main_arg3) (funext fun a => Fin.ext ?_)
  match a with
  | ⟨0, _⟩ => show win0_3.index t (0 : Fin 1) * 256 + 1 * q.val = t.val * 256 + q.val; omega

/-- The output's block at point `t` sits at columns `256 t …` of the output array. -/
theorem out_block (t : Fin cfg0.N) (p q : Fin 256) :
    ((cfg0.win 4).blk t).view.emb (ix2 p q) = ix2 p (chan t q) := by
  obtain ⟨-, -, -, -, -, -, e0, e1⟩ := block_index t
  refine funext fun a => Fin.ext ?_
  match a with
  | ⟨0, _⟩ => show win0_4.index t (0 : Fin 2) * 256 + 1 * p.val = p.val; omega
  | ⟨1, _⟩ => show win0_4.index t (1 : Fin 2) * 256 + 1 * q.val = t.val * 256 + q.val; omega

/-! ## What a point writes back -/

/-- At point `t`, token `p`, block column `q`, the body's value is the layer's entry at channel `256 t + q`. -/
theorem point_apply (c : Dev nD) (t : Fin cfg0.N) (p q : Fin 256) :
    k0_pay1 (F := Ideal) (iblk m c 0 t) (iblk m c 1 t) (iblk m c 2 t) (iblk m c 3 t) (ix2 p q)
      = linear (V m c main_arg0) (V m c main_arg1) (V m c main_arg2) (V m c main_arg3) (ix2 p (chan t q)) := by
  rw [Body.body_apply, linear_apply, scales_block, biases_block]
  refine congrArg (· + V m c main_arg3 (ix1 (chan t q))) (Finset.sum_congr rfl fun k _ => ?_)
  rw [tokens_block, weights_block]
  rfl

/-- WHAT POINT `t` WRITES BACK is block `t` of the layer of the argument arrays. -/
theorem flushed_eq (c : Dev nD) (t : Fin cfg0.N) :
    (dats m 0 c).flushed 4 t = ((cfg0.win 4).blk t).view.read (Elt Ideal)
      (linear (V m c main_arg0) (V m c main_arg1) (V m c main_arg2) (V m c main_arg3)) := by
  rw [Value.flushed4]
  unfold out0_4
  rw [View.canon_unit_zero origin2]
  simp only [View.ld_unit_zero (S := S256x4096) origin2, View.ld_unit_zero (S := S256) origin1]
  funext j
  obtain ⟨p, q, rfl⟩ : ∃ (p q : Fin 256), j = ix2 p q := ⟨j 0, j 1, eq_ix2 j⟩
  show k0_pay1 (F := Ideal) (iblk m c 0 t) (iblk m c 1 t) (iblk m c 2 t) (iblk m c 3 t) (ix2 p q)
    = linear (V m c main_arg0) (V m c main_arg1) (V m c main_arg2) (V m c main_arg3) (((cfg0.win 4).blk t).view.emb (ix2 p q))
  rw [out_block]
  exact point_apply m c t p q

/-! ## The blocks tile the output -/

/-- An index of the output is in point `t`'s block iff each coordinate is in the block's range on its axis. -/
theorem mem_block (t : Fin cfg0.N) (i : S256x14336.Idx) :
    i ∈ ((cfg0.win 4).blk t).view.set ↔ ∀ a : Fin 2, win0_4.index t a * S256x256.size a ≤ (i a).val ∧ (i a).val < win0_4.index t a * S256x256.size a + S256x256.size a := by
  show i ∈ ((View.whole main_v0).slice (win0_4.rect t)).set ↔ _
  rw [View.set_slice_whole, Rect.mem_set_unit]
  exact Iff.rfl

/-- Every output index is in the block of point `o / 256`, `o` its channel. -/
theorem cover (i : S256x14336.Idx) :
    ∃ t : Fin cfg0.N, (cfg0.win 4).flush t = true ∧ i ∈ ((cfg0.win 4).blk t).view.set := by
  have hi0 : (i 0).val < 256 := (i 0).isLt
  have hi1 : (i 1).val < 14336 := (i 1).isLt
  have ht : (i 1).val / 256 < 56 := by omega
  refine ⟨⟨(i 1).val / 256, ht⟩, flush0_4 _, ?_⟩
  obtain ⟨-, -, -, -, -, -, e0, e1⟩ := block_index ⟨(i 1).val / 256, ht⟩
  rw [mem_block]
  intro a
  match a with
  | ⟨0, _⟩ =>
    show win0_4.index ⟨(i 1).val / 256, ht⟩ (0 : Fin 2) * 256 ≤ (i 0).val ∧ (i 0).val < win0_4.index ⟨(i 1).val / 256, ht⟩ (0 : Fin 2) * 256 + 256
    rw [e0]; omega
  | ⟨1, _⟩ =>
    show win0_4.index ⟨(i 1).val / 256, ht⟩ (1 : Fin 2) * 256 ≤ (i 1).val ∧ (i 1).val < win0_4.index ⟨(i 1).val / 256, ht⟩ (1 : Fin 2) * 256 + 256
    rw [e1]; show (i 1).val / 256 * 256 ≤ (i 1).val ∧ (i 1).val < (i 1).val / 256 * 256 + 256; omega

/-- THE OUTPUT ARRAY after the run is the layer of the argument arrays. -/
theorem final (c : Dev nD) : (dats m 0 c).arrAt 4 cfg0.N
    = linear (V m c main_arg0) (V m c main_arg1) (V m c main_arg2) (V m c main_arg3) :=
  (dats m 0 c).arrAt_eq_of_cover 4 _ (fun t _ => flushed_eq m c t) cover

/-! ## The run -/

/-- Every weakly fair execution of the kernel ends with the output at the layer of the arguments as launched, and the
    arguments unchanged. -/
theorem run : θ_run defs (onTc (τ := τ) (main (F := Ideal))) ⟨m, fun _ => 0, ρ⟩ fun r => ∀ c : Dev nD,
      r.2.mem ((c : Thread nD τ).loc main_v0) = linear (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.QLinear.Kernel

end
-- ==== Proof.lean ====
/-
  A linear layer whose weight matrix is stored as integers with one scale per output channel:
  for 256 tokens, 14336 output channels and 4096 input features,

      y t o = (∑ k, x t k * (w o k * s o)) + b o        (`Cert.QLinear.linear`).

  The kernel walks the output channels in 56 blocks of 256. For each block it reads the block's integer
  weight rows as numbers, scales each row by its channel's scale, contracts all token rows with the scaled
  rows over the features into a zero accumulator, adds the block's biases, and writes the block's 256 output
  columns. The reference dequantises the whole weight matrix the same way, contracts the tokens with it over
  the features, and adds the bias.

  On the extended reals a change of float format is the identity and the zero accumulator adds nothing, so the
  kernel's entry at token `p` and column `q` of block `t` is the layer's entry at channel `256 t + q`
  (`Cert.QLinear.Body.body_apply`, `Cert.QLinear.Kernel.point_apply`); the 56 column blocks tile the channels, so the
  kernel's output array is the layer (`Cert.QLinear.Kernel.final`, `run`). The reference's eight operations read at
  an entry give the same sum and the same bias (`Cert.QLinear.Ref.result_eq`). The two sides are the same
  expression term for term — no sum is regrouped and nothing is distributed — so the inputs' finiteness is not
  used. The idealisation rewrote no operation, so there is nothing to preserve. Each program's frame is its
  generated run.
-/
import proofs.«131660_j38122129719936_1_alg».proof.Defs
import proofs.«131660_j38122129719936_1_alg».proof.Proof.Gen.Kernel
import proofs.«131660_j38122129719936_1_alg».proof.Proof.Gen.Kernel.Skeleton
import proofs.«131660_j38122129719936_1_alg».proof.Proof.Gen.Kernel.Launch
import proofs.«131660_j38122129719936_1_alg».proof.Proof.Gen.Kernel.Points
import proofs.«131660_j38122129719936_1_alg».proof.Proof.Gen.Kernel.Frame
import proofs.«131660_j38122129719936_1_alg».proof.Proof.Gen.KernelIdeal
import proofs.«131660_j38122129719936_1_alg».proof.Proof.Gen.KernelIdeal.Skeleton
import proofs.«131660_j38122129719936_1_alg».proof.Proof.Gen.KernelIdeal.Launch
import proofs.«131660_j38122129719936_1_alg».proof.Proof.Gen.KernelIdeal.Points
import proofs.«131660_j38122129719936_1_alg».proof.Proof.Gen.KernelIdeal.Frame
import proofs.«131660_j38122129719936_1_alg».proof.Proof.Gen.ReferenceIdeal
import proofs.«131660_j38122129719936_1_alg».proof.Proof.Gen.Pre_finite_inputs
import proofs.«131660_j38122129719936_1_alg».proof.Proof.Gen.KernelIdeal.Value
import proofs.«131660_j38122129719936_1_alg».proof.Proof.Gen.ReferenceIdeal.Run
import proofs.«131660_j38122129719936_1_alg».proof.Proof.Gen.ReferenceIdeal.Read
import Idealize.ShloMosaic.Adequacy
import Idealize.ShloMosaic.Init

import proofs.«131660_j38122129719936_1_alg».proof.Proof.Spec
import proofs.«131660_j38122129719936_1_alg».proof.Proof.RefLinear
import proofs.«131660_j38122129719936_1_alg».proof.Proof.KernelLinear

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealised kernel is the kernel's own text read on the extended reals: no rewrite to account for. -/
theorem preserves : Cert.preserves_Kernel_KernelIdeal := trivial

/-- From memories that agree on the four arguments, the kernel's output array and the reference's result are both
    the layer of those arguments. -/
theorem algebraic : Cert.algebraic_KernelIdeal_ReferenceIdeal := by
  intro m ρ m' ρ' _ hagree
  refine ⟨_, Cert.QLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.QLinear.Ref.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
